-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S2000x64 : Shape := ⟨2, ![2000, 64]⟩
abbrev S2000x1 : Shape := ⟨2, ![2000, 1]⟩

abbrev nBuf : Space → Nat
  | .hbm => 27
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x1, .f32⟩
  | .hbm, ⟨25, _⟩ => ⟨S1x64, .f32⟩
  | .hbm, ⟨26, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v9) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x64, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .i1⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.SageLayer.lean ====
/-
  The function both programs compute, index by index over the extended reals.

  A graph layer over 100000 nodes with 64 input and 64 output channels. For node `r` and output channel `j`:
    h(r, k)   = (msg(r, k) + feat(r, k)) / (deg(r) + 1)            -- the neighbour sum joined with the node's own
                                                                    -- features, divided by the in-degree plus one
    pre(r, j) = (∑ k, h(r, k) · W(k, j)) + b(j)                     -- the linear map and its bias
    out(r, j) = pre(r, j)  where  pre(r, j) ≥ 0,  slope · pre(r, j)  elsewhere
  `msg` (the sum of the source features over the edges entering a node) and `deg` (the number of such edges) are
  arguments here: both programs obtain them by the same scatter-additions over the edge list, and nothing below
  depends on what they hold. The slope is the f32 word nearest to 1/100, read as its exact binary value on both sides;
  the constant one is the f32 word of 1.
-/
import Idealize.ShloMosaic.PureOps.Ideal
import Idealize.ShloMosaic.Lib.ValueIdx

noncomputable section

namespace Cert.SageLayer

open Idealize.ShloMosaic Idealize.ShloMosaic.ValueIdx

/-- The activation on an extended real: the value itself where it is at least zero, the slope times it elsewhere. -/
def leaky (x : EReal) : EReal :=
  Scalar.select (FloatOps.cmpf (F := Ideal) (φ := .f32) .oge x (Ideal.ofBits .f32 0x00000000#32)) x
    (Ideal.ofBits .f32 0x3C23D70A#32 * x)

/-- The aggregated feature of node `r` at input channel `k`: neighbour sum plus own feature, over in-degree plus one. -/
def meanAgg (msg feat : (⟨2, ![100000, 64]⟩ : Shape).Idx → EReal) (deg : (⟨1, ![100000]⟩ : Shape).Idx → EReal)
    (r : Fin 100000) (k : Fin 64) : EReal :=
  Ideal.div (msg (ix2 r k) + feat (ix2 r k)) (deg (ix1 r) + Ideal.ofBits .f32 0x3F800000#32)

/-- The layer's output array as one function of its five argument arrays. -/
def layer (msg feat : (⟨2, ![100000, 64]⟩ : Shape).Idx → EReal) (deg : (⟨1, ![100000]⟩ : Shape).Idx → EReal)
    (W : (⟨2, ![64, 64]⟩ : Shape).Idx → EReal) (b : (⟨1, ![64]⟩ : Shape).Idx → EReal) :
    (⟨2, ![100000, 64]⟩ : Shape).Idx → EReal :=
  fun i => leaky ((∑ k : Fin 64, meanAgg msg feat deg (i 0) k * W (ix2 k (i 1))) + b (ix1 (i 1)))

end Cert.SageLayer

end
-- ==== Proof.RefIsLayer.lean ====
/-
  The reference computes the layer function.

  Read one operation at a time, the reference's result at `(r, j)` is the activation of
  `(∑ k, ((msg + feat)(r, k) / (deg(r) + 1)) · W(k, j)) + b(j)`: the degree is broadcast along a new unit axis and then
  along the channels, so the divisor at `(r, k)` is the degree of row `r` plus one whatever `k` is; the product is the
  plain sum over the one contracted axis; the bias is broadcast along the rows. The two scatter-additions that produce
  `msg` and `deg` are left as they are: the same terms stand on the kernel's side.
-/
import proofs.«100727_j11622181503640_1_alg».proof.Proof.Gen.ReferenceIdeal.Read
import proofs.«100727_j11622181503640_1_alg».proof.Proof.SageLayer

noncomputable section

namespace Cert.ReferenceIdeal.RefLayer

open Cert.ReferenceIdeal Cert.ReferenceIdeal.Gen Cert.ReferenceIdeal.Read Idealize.ShloMosaic Idealize.ShloMosaic.ValueIdx
open Cert.SageLayer

/-- The reference's last stage is the layer function of the neighbour sums, the features, the in-degrees, the weights
    and the bias. -/
theorem result_eq (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    val_main_v28 (F := Ideal) x0 x1 x2 x3 x4
      = layer (val_main_v9 (F := Ideal) x0 x1 x2) x0 (val_main_v13 (F := Ideal) x2) x3 x4 := by
  funext i
  obtain ⟨r, j, rfl⟩ : ∃ (r : Fin 100000) (j : Fin 64), i = ix2 r j := ⟨i 0, i 1, eq_ix2 i⟩
  -- the operand indices of the product, and the indices the broadcasts read, as coordinates
  have el : ∀ k : Fin 64, lidx_main_v20 (ix2 r j) k = ix2 r k := fun k => funext fun a => Fin.ext (by
    match a with | ⟨0, _⟩ => rfl | ⟨1, _⟩ => rfl)
  have er : ∀ k : Fin 64, ridx_main_v20 (ix2 r j) k = ix2 k j := fun k => funext fun a => Fin.ext (by
    match a with | ⟨0, _⟩ => rfl | ⟨1, _⟩ => rfl)
  have ed : ∀ k : Fin 64, idx_main_v15 (idx_main_v18 (ix2 r k)) = ix1 r := fun k => funext fun a => Fin.ext (by
    match a with | ⟨0, _⟩ => rfl)
  have eb : idx_main_v21 (idx_main_v22 (ix2 r j)) = ix1 j := funext fun a => Fin.ext (by
    match a with | ⟨0, _⟩ => rfl)
  rw [val_main_v28_apply, val_main_v25_apply, val_main_v27_apply, val_main_v23_apply, val_main_v20_apply,
    val_main_v22_apply, val_main_v21_apply, val_main_v24_apply, val_main_v26_apply, val_main_cst_4_apply,
    val_main_cst_5_apply]
  -- the quotient at row `r`, channel `k`: the divisor is the degree of that row plus one, whatever `k`
  have hq : ∀ k : Fin 64, val_main_v19 (F := Ideal) x0 x1 x2 (ix2 r k)
      = meanAgg (val_main_v9 (F := Ideal) x0 x1 x2) x0 (val_main_v13 (F := Ideal) x2) r k := by
    intro k
    rw [val_main_v19_apply, val_main_v14_apply, val_main_v18_apply, val_main_v17_apply, val_main_v15_apply,
      val_main_v16_apply, val_main_cst_3_apply, ed k]
    rfl
  have hsum : (∑ k : Fin 64, val_main_v19 (F := Ideal) x0 x1 x2 (lidx_main_v20 (ix2 r j) k) * x3 (ridx_main_v20 (ix2 r j) k))
      = ∑ k : Fin 64, meanAgg (val_main_v9 (F := Ideal) x0 x1 x2) x0 (val_main_v13 (F := Ideal) x2) r k * x3 (ix2 k j) :=
    Finset.sum_congr rfl fun k _ => by rw [el k, er k, hq k]
  rw [hsum, eb]
  rfl

end Cert.ReferenceIdeal.RefLayer

end
-- ==== Proof.BodyAtIndex.lean ====
/-
  The kernel body's stored value at an index of its block.

  On a block of 2000 rows the body forms `(msg + feat) / (deg + 1)` with the degree column broadcast along the 64
  channels, multiplies by the 64 × 64 weights (the two narrowings to bf16 are the identity on extended reals, and the
  product into a zero accumulator is the plain sum over the contracted axis), adds the bias row broadcast along the
  rows, and applies the activation. At `(p, q)` of the block that is the activation of
  `(∑ k, ((msg + feat)(p, k) / (deg(p, 0) + 1)) · W(k, q)) + b(0, q)`.
-/
import proofs.«100727_j11622181503640_1_alg».proof.Proof.Gen.KernelIdeal.Skeleton
import proofs.«100727_j11622181503640_1_alg».proof.Proof.SageLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.SageLayer

/-! ## The product's operand indices, axis by axis -/

theorem lhs_axis0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_axis1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_axis0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_axis1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into a zero accumulator, at `(p, q)`: the sum over the 64 contracted channels of the left operand's
    row `p` times the right operand's column `q`. -/
theorem matmul_at {φ₁ φ₂ : FTy} (l : FVec Ideal S2000x64 φ₁) (r : FVec Ideal S64x64 φ₂) (p : Fin 2000) (q : Fin 64) :
    matmul (F := Ideal) dot_S2000x64_S64x64_S2000x64_1_0_0_1_n_n none l r (constant (F := Ideal) S2000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE STORED VALUE at `(p, q)` of the block, from the five loaded blocks. -/
theorem pay_apply (v0 : Vec Ideal S2000x1 .f32) (v4 v6 : Vec Ideal S2000x64 .f32) (v11 : Vec Ideal S64x64 .f32)
    (v14 : Vec Ideal S1x64 .f32) (p : Fin 2000) (q : Fin 64) :
    k0_pay1 (F := Ideal) v0 v4 v6 v11 v14 (ix2 p q)
      = leaky ((∑ k : Fin 64, Ideal.div (v4 (ix2 p k) + v6 (ix2 p k)) (v0 (ix2 p (0 : Fin 1)) + Ideal.ofBits .f32 0x3F800000#32) * v11 (ix2 k q))
          + v14 (ix2 (0 : Fin 1) q)) := by
  unfold k0_pay1
  simp only [select_apply, cmpf_apply, mulf_apply, addf_apply, broadcast_apply]
  rw [matmul_at, broadcastTo_1b_ab_apply, shapeCast_self]
  simp only [truncf_apply, divf_apply, addf_apply, shapeCast_self, broadcastTo_a1_ab_apply, broadcast_apply]
  rfl

end Cert.KernelIdeal.Body

end
-- ==== Proof.KernelBlock.lean ====
/-
  One block of the kernel.

  The grid has 50 points; point `t` works on rows `2000 t … 2000 t + 1999`: it is handed those rows of the neighbour sums,
  of the features and of the degree column, together with the whole weight matrix and the whole bias row. If the five
  loaded blocks are those pieces of five arrays, the value the body stores at `(p, q)` is the layer function of the
  arrays at row `2000 t + p`, channel `q`, with the degree read from its column and the bias from its row.
-/
import proofs.«100727_j11622181503640_1_alg».proof.Proof.Gen.KernelIdeal.Value
import proofs.«100727_j11622181503640_1_alg».proof.Proof.BodyAtIndex
import proofs.«100727_j11622181503640_1_alg».proof.Proof.SageLayer

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.SageLayer
open Idealize.ShloMosaic.Pipeline (Dat)

variable (m : (ℓ : Loc nD τ sig) → Buf (Elt Ideal) ℓ) (ρ : Dev nD → PrngReg)

/-- The layer function over the arrays in the kernel's layout: the in-degrees as a column `[100000, 1]`, the bias as a
    row `[1, 64]`. -/
def layerK (msg feat : S100000x64.Idx → EReal) (degc : S100000x1.Idx → EReal) (W : S64x64.Idx → EReal)
    (brow : S1x64.Idx → EReal) : S100000x64.Idx → EReal :=
  layer msg feat (fun r => degc (ix2 (r 0) (0 : Fin 1))) W (fun j => brow (ix2 (0 : Fin 1) (j 0)))

theorem zero_offsets : (![0, 0] : Fin 2 → Nat) = fun _ => 0 := funext fun a => by fin_cases a <;> rfl

/-- The printed index maps, decided over the 50 points: the three row-blocked inputs and the output are at block row
    `t`, block column 0; the weights and the bias are at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- ONE BLOCK: if the five loaded blocks are rows `2000 n …` of the arrays (the weights and the bias whole), the body's
    stored value at `(p, q)` is the layer function at row `2000 n + p`, channel `q`. -/
theorem block_value (A9 A0 : S100000x64.Idx → EReal) (A14 : S100000x1.Idx → EReal) (A3 : S64x64.Idx → EReal) (A15 : S1x64.Idx → EReal)
    (x0 x1 : Vec Ideal S2000x64 .f32) (x2 : Vec Ideal S2000x1 .f32) (x3 : Vec Ideal S64x64 .f32) (x4 : Vec Ideal S1x64 .f32)
    (n : ℕ) (hn : n < 50)
    (h0 : ∀ (p : Fin 2000) (k : Fin 64), x0 (ix2 p k) = A9 (ix2 (⟨n * 2000 + p.val, by omega⟩ : Fin 100000) k))
    (h1 : ∀ (p : Fin 2000) (k : Fin 64), x1 (ix2 p k) = A0 (ix2 (⟨n * 2000 + p.val, by omega⟩ : Fin 100000) k))
    (h2 : ∀ (p : Fin 2000), x2 (ix2 p (0 : Fin 1)) = A14 (ix2 (⟨n * 2000 + p.val, by omega⟩ : Fin 100000) (0 : Fin 1)))
    (h3 : x3 = A3) (h4 : x4 = A15) (p : Fin 2000) (q : Fin 64) :
    k0_pay1 (F := Ideal) x2 x0 x1 x3 x4 (ix2 p q)
      = layerK A9 A0 A14 A3 A15 (ix2 (⟨n * 2000 + p.val, by omega⟩ : Fin 100000) q) := by
  rw [Body.pay_apply]
  subst h3 h4
  simp only [h0, h1, h2]
  rfl

/-- The same as an equation of functions on the block: the stored block is the layer function read along rows
    `2000 n …`. -/
theorem block_fn (A9 A0 : S100000x64.Idx → EReal) (A14 : S100000x1.Idx → EReal) (A3 : S64x64.Idx → EReal) (A15 : S1x64.Idx → EReal)
    (x0 x1 : Vec Ideal S2000x64 .f32) (x2 : Vec Ideal S2000x1 .f32) (x3 : Vec Ideal S64x64 .f32) (x4 : Vec Ideal S1x64 .f32)
    (n : ℕ) (hn : n < 50)
    (h0 : ∀ (p : Fin 2000) (k : Fin 64), x0 (ix2 p k) = A9 (ix2 (⟨n * 2000 + p.val, by omega⟩ : Fin 100000) k))
    (h1 : ∀ (p : Fin 2000) (k : Fin 64), x1 (ix2 p k) = A0 (ix2 (⟨n * 2000 + p.val, by omega⟩ : Fin 100000) k))
    (h2 : ∀ (p : Fin 2000), x2 (ix2 p (0 : Fin 1)) = A14 (ix2 (⟨n * 2000 + p.val, by omega⟩ : Fin 100000) (0 : Fin 1)))
    (h3 : x3 = A3) (h4 : x4 = A15) :
    (k0_pay1 (F := Ideal) x2 x0 x1 x3 x4 : S2000x64.Idx → EReal)
      = fun y => layerK A9 A0 A14 A3 A15
          (ix2 (⟨n * 2000 + (y 0).val, by have := idx2_lt0 y; omega⟩ : Fin 100000) (⟨(y 1).val, idx2_lt1 y⟩ : Fin 64)) := by
  funext y
  obtain ⟨p, q, rfl⟩ : ∃ (p : Fin 2000) (q : Fin 64), y = ix2 p q := ⟨y 0, y 1, eq_ix2 y⟩
  exact block_value A9 A0 A14 A3 A15 x0 x1 x2 x3 x4 n hn h0 h1 h2 h3 h4 p q

end Cert.KernelIdeal.Blocks

end
-- ==== Proof.KernelFlush.lean ====
/-
  What a grid point writes back.

  Point `t`'s input blocks are rows `2000 t …` of the arrays the region finds (a block's coordinate is the block index
  times the block size plus the coordinate inside the block), so by the one-block lemma what it writes back is block `t`
  of the layer function of those arrays.
-/
import proofs.«100727_j11622181503640_1_alg».proof.Proof.KernelBlock

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.SageLayer
open Idealize.ShloMosaic.Pipeline (Dat)

variable (m : (ℓ : Loc nD τ sig) → Buf (Elt Ideal) ℓ) (ρ : Dev nD → PrngReg)

/-! ## Each window's block at point `t`, read off an array

A block's coordinate in the array is the block index times the block size plus the coordinate inside the block. The
arrays are arbitrary here: what they hold plays no part. -/

/-- Window 0 (the neighbour sums): the block is rows `2000 t …`. -/
theorem rows_w0 (c : Dev nD) (t : Fin cfg0.N) (A : Buf (Elt Ideal) ((c : Thread nD τ).loc (Pipeline.arrRef spec0 0))) (p : Fin 2000) (k : Fin 64) :
    ((((cfg0.win 0).blk t).view.read (Elt Ideal) A : Vec Ideal S2000x64 .f32)) (ix2 p k)
      = (A : S100000x64.Idx → EReal) (ix2 (⟨t.val * 2000 + p.val, by have := t.isLt; have hN : cfg0.N = 50 := N_0; omega⟩ : Fin 100000) k) := by
  obtain ⟨e0, e1, -⟩ := block_indices t
  have e : ((cfg0.win 0).blk t).view.emb (ix2 p k)
      = ix2 (⟨t.val * 2000 + p.val, by have := t.isLt; have hN : cfg0.N = 50 := N_0; omega⟩ : Fin 100000) k := by
    funext a; apply Fin.ext
    match a with
    | ⟨0, _⟩ => show win0_0.index t (0 : Fin 2) * 2000 + 1 * p.val = t.val * 2000 + p.val; rw [e0]; omega
    | ⟨1, _⟩ => show win0_0.index t (1 : Fin 2) * 64 + 1 * k.val = k.val; rw [e1]; omega
  rw [View.read_apply, e]
  rfl

/-- Window 1 (the features): the block is rows `2000 t …`. -/
theorem rows_w1 (c : Dev nD) (t : Fin cfg0.N) (A : Buf (Elt Ideal) ((c : Thread nD τ).loc (Pipeline.arrRef spec0 1))) (p : Fin 2000) (k : Fin 64) :
    ((((cfg0.win 1).blk t).view.read (Elt Ideal) A : Vec Ideal S2000x64 .f32)) (ix2 p k)
      = (A : S100000x64.Idx → EReal) (ix2 (⟨t.val * 2000 + p.val, by have := t.isLt; have hN : cfg0.N = 50 := N_0; omega⟩ : Fin 100000) k) := by
  obtain ⟨-, -, e0, e1, -⟩ := block_indices t
  have e : ((cfg0.win 1).blk t).view.emb (ix2 p k)
      = ix2 (⟨t.val * 2000 + p.val, by have := t.isLt; have hN : cfg0.N = 50 := N_0; omega⟩ : Fin 100000) k := by
    funext a; apply Fin.ext
    match a with
    | ⟨0, _⟩ => show win0_1.index t (0 : Fin 2) * 2000 + 1 * p.val = t.val * 2000 + p.val; rw [e0]; omega
    | ⟨1, _⟩ => show win0_1.index t (1 : Fin 2) * 64 + 1 * k.val = k.val; rw [e1]; omega
  rw [View.read_apply, e]
  rfl

/-- Window 2 (the degree column): the block is rows `2000 t …` of the one column. -/
theorem rows_w2 (c : Dev nD) (t : Fin cfg0.N) (A : Buf (Elt Ideal) ((c : Thread nD τ).loc (Pipeline.arrRef spec0 2))) (p : Fin 2000) :
    ((((cfg0.win 2).blk t).view.read (Elt Ideal) A : Vec Ideal S2000x1 .f32)) (ix2 p (0 : Fin 1))
      = (A : S100000x1.Idx → EReal) (ix2 (⟨t.val * 2000 + p.val, by have := t.isLt; have hN : cfg0.N = 50 := N_0; omega⟩ : Fin 100000) (0 : Fin 1)) := by
  obtain ⟨-, -, -, -, e0, e1, -⟩ := block_indices t
  have e : ((cfg0.win 2).blk t).view.emb (ix2 p (0 : Fin 1))
      = ix2 (⟨t.val * 2000 + p.val, by have := t.isLt; have hN : cfg0.N = 50 := N_0; omega⟩ : Fin 100000) (0 : Fin 1) := by
    funext a; apply Fin.ext
    match a with
    | ⟨0, _⟩ => show win0_2.index t (0 : Fin 2) * 2000 + 1 * p.val = t.val * 2000 + p.val; rw [e0]; omega
    | ⟨1, _⟩ => show win0_2.index t (1 : Fin 2) * 1 + 1 * 0 = 0; rw [e1]
  rw [View.read_apply, e]
  rfl

/-- Window 3 (the weights): the one block is the whole matrix. -/
theorem whole_w3 (c : Dev nD) (t : Fin cfg0.N) (A : Buf (Elt Ideal) ((c : Thread nD τ).loc (Pipeline.arrRef spec0 3))) :
    (((cfg0.win 3).blk t).view.read (Elt Ideal) A : Vec Ideal S64x64 .f32) = (A : S64x64.Idx → EReal) := by
  obtain ⟨-, -, -, -, -, -, e0, e1, -⟩ := block_indices t
  funext z
  have e : ((cfg0.win 3).blk t).view.emb z = z := by
    funext a; apply Fin.ext
    match a with
    | ⟨0, _⟩ => show win0_3.index t (0 : Fin 2) * 64 + 1 * (z 0).val = (z 0).val; rw [e0]; omega
    | ⟨1, _⟩ => show win0_3.index t (1 : Fin 2) * 64 + 1 * (z 1).val = (z 1).val; rw [e1]; omega
  rw [View.read_apply, e]
  rfl

/-- Window 4 (the bias row): the one block is the whole row. -/
theorem whole_w4 (c : Dev nD) (t : Fin cfg0.N) (A : Buf (Elt Ideal) ((c : Thread nD τ).loc (Pipeline.arrRef spec0 4))) :
    (((cfg0.win 4).blk t).view.read (Elt Ideal) A : Vec Ideal S1x64 .f32) = (A : S1x64.Idx → EReal) := by
  obtain ⟨-, -, -, -, -, -, -, -, e0, e1, -⟩ := block_indices t
  funext z
  have e : ((cfg0.win 4).blk t).view.emb z = z := by
    funext a; apply Fin.ext
    match a with
    | ⟨0, _⟩ => show win0_4.index t (0 : Fin 2) * 1 + 1 * (z 0).val = (z 0).val; rw [e0]; omega
    | ⟨1, _⟩ => show win0_4.index t (1 : Fin 2) * 64 + 1 * (z 1).val = (z 1).val; rw [e1]; omega
  rw [View.read_apply, e]
  rfl

/-- ONE POINT, over arbitrary arrays: the body's result on the five blocks of point `t`, written back through the output
    window, is block `t` of the layer function of the arrays. -/
theorem point_eq (c : Dev nD) (t : Fin cfg0.N) (A0 : Buf (Elt Ideal) ((c : Thread nD τ).loc (Pipeline.arrRef spec0 0))) (A1 : Buf (Elt Ideal) ((c : Thread nD τ).loc (Pipeline.arrRef spec0 1))) (A2 : Buf (Elt Ideal) ((c : Thread nD τ).loc (Pipeline.arrRef spec0 2)))
    (A3 : Buf (Elt Ideal) ((c : Thread nD τ).loc (Pipeline.arrRef spec0 3))) (A4 : Buf (Elt Ideal) ((c : Thread nD τ).loc (Pipeline.arrRef spec0 4))) :
    (cfg0.win 5).cut (grid0.coords t)
        (out0_5 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (layerK A0 A1 A2 A3 A4) := by
  have ht : t.val < 50 := by have := t.isLt; have hN : cfg0.N = 50 := N_0; omega
  -- the stored block, as rows `2000 t …` of the layer function
  have hblock := block_fn A0 A1 A2 A3 A4
    (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) t.val ht
    (rows_w0 c t A0) (rows_w1 c t A1) (rows_w2 c t A2) (whole_w3 c t A3) (whole_w4 c t A4)
  unfold out0_5
  rw [View.canon_unit_zero zero_offsets]
  simp only [View.ld_unit_zero (S := S2000x64) zero_offsets, View.ld_unit_zero (S := S2000x1) zero_offsets,
    View.ld_unit_zero (S := S64x64) zero_offsets, View.ld_unit_zero (S := S1x64) zero_offsets]
  rw [hblock]
  -- from here on the layer function is one name
  generalize layerK A0 A1 A2 A3 A4 = L
  obtain ⟨-, -, -, -, -, -, -, -, -, -, e0, e1⟩ := block_indices t
  funext y
  have e : (ix2 (⟨t.val * 2000 + (y 0).val, by have h0 : (y 0).val < 2000 := (y 0).isLt; omega⟩ : Fin 100000) (⟨(y 1).val, (y 1).isLt⟩ : Fin 64) : S100000x64.Idx)
      = ((cfg0.win 5).blk t).view.emb y := by
    funext a; apply Fin.ext
    match a with
    | ⟨0, _⟩ => show t.val * 2000 + (y 0).val = win0_5.index t (0 : Fin 2) * 2000 + 1 * (y 0).val; rw [e0]; omega
    | ⟨1, _⟩ => show (y 1).val = win0_5.index t (1 : Fin 2) * 64 + 1 * (y 1).val; rw [e1]; omega
  rw [View.read_apply, ← e]
  rfl

/-- WHAT POINT `t` WRITES BACK is block `t` of the layer function of the arrays as the region finds them. -/
theorem flushed_eq (c : Dev nD) (t : Fin cfg0.N) :
    (dats m 0 c).flushed 5 t = ((cfg0.win 5).blk t).view.read (Elt Ideal)
      (layerK (V m c (Pipeline.arrRef spec0 0)) (V m c (Pipeline.arrRef spec0 1)) (V m c (Pipeline.arrRef spec0 2))
        (V m c (Pipeline.arrRef spec0 3)) (V m c (Pipeline.arrRef spec0 4))) := by
  rw [Value.flushed5]
  unfold iblk
  exact point_eq c t (V m c (Pipeline.arrRef spec0 0)) (V m c (Pipeline.arrRef spec0 1)) (V m c (Pipeline.arrRef spec0 2))
    (V m c (Pipeline.arrRef spec0 3)) (V m c (Pipeline.arrRef spec0 4))

end Cert.KernelIdeal.Blocks

end
-- ==== Proof.KernelCover.lean ====
/-
  The 50 blocks tile the result array, so after the run it is the layer function.

  Row `r` of the result lies in the block of point `r / 2000` (50 · 2000 = 100000 rows, all 64 channels in every block);
  every point writes its block back. Hence the array after the run is, everywhere, the one function each block is a
  piece of.
-/
import proofs.«100727_j11622181503640_1_alg».proof.Proof.KernelFlush

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.SageLayer
open Idealize.ShloMosaic.Pipeline (Dat)

variable (m : (ℓ : Loc nD τ sig) → Buf (Elt Ideal) ℓ) (ρ : Dev nD → PrngReg)

/-- An index of the result array is in point `t`'s block iff each coordinate is in the block's range on its axis. -/
theorem mem_block (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v16).slice (win0_5.rect t)).set ↔ _
  rw [View.set_slice_whole, Rect.mem_set_unit]
  exact Iff.rfl

/-- THE COVER: row `r` is in the block of point `r / 2000`. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  refine ⟨⟨(i 0).val / 2000, by omega⟩, flush0_5 _, ?_⟩
  obtain ⟨-, -, -, -, -, -, -, -, -, -, e50, e51⟩ := block_indices ⟨(i 0).val / 2000, by omega⟩
  rw [mem_block]
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 64 ≤ (i 1).val ∧ (i 1).val < win0_5.index _ (1 : Fin 2) * 64 + 64
    rw [e51]; omega

/-- THE RESULT ARRAY after the run is the layer function of the arrays as the region finds them. -/
theorem final (c : Dev nD) :
    (dats m 0 c).arrAt 5 cfg0.N
      = layerK (V m c (Pipeline.arrRef spec0 0)) (V m c (Pipeline.arrRef spec0 1)) (V m c (Pipeline.arrRef spec0 2))
          (V m c (Pipeline.arrRef spec0 3)) (V m c (Pipeline.arrRef spec0 4)) :=
  (dats m 0 c).arrAt_eq_of_cover 5 _ (fun t _ => flushed_eq m c t) covered

end Cert.KernelIdeal.Blocks

end
-- ==== Proof.HostArrays.lean ====
/-
  The arrays the host writes before the region, and the kernel's run in the reference's terms.

  Before the region the host computes the neighbour sums (gather the source rows, scatter-add them at the destination
  nodes), the in-degrees (scatter-add ones at the destination nodes), and re-lays the degrees as a column and the bias
  as a row. The first two are, operation for operation, the terms the reference computes; a column `[n, 1]` of a vector
  reads the vector at the row, and a row `[1, n]` reads it at the column. So the layer function in the kernel's layout,
  at these arrays, is the layer function of the reference's neighbour sums and in-degrees and of the bias itself.
-/
import proofs.«100727_j11622181503640_1_alg».proof.Proof.Gen.KernelIdeal.Frame
import proofs.«100727_j11622181503640_1_alg».proof.Proof.Gen.ReferenceIdeal.Read
import proofs.«100727_j11622181503640_1_alg».proof.Proof.KernelBlock
import Idealize.ShloMosaic.Lib.StableHlo.Run
import Idealize.ShloMosaic.Lib.ValueLayout
import Idealize.ShloMosaic.Lib.Pipeline.Value

noncomputable section

namespace Cert.KernelIdeal.HostArrays

open Cert.KernelIdeal Cert.KernelIdeal.Gen Idealize.ShloMosaic Idealize.ShloMosaic.TcCoe Idealize.SL.Sem
open Idealize.ShloMosaic.ValueIdx Idealize.ShloMosaic.StableHlo Cert.SageLayer

variable (m : (ℓ : Loc nD τ sig) → Buf (Elt Ideal) ℓ)

/-- The neighbour sums the region finds are the reference's, of the same three arguments. -/
theorem msg_eq (c : Dev nD) : (V m c main_v9 : S100000x64.Idx → EReal)
    = Cert.ReferenceIdeal.Read.val_main_v9 (F := Ideal) (m ((c : Thread nD τ).loc main_arg0))
        (m ((c : Thread nD τ).loc main_arg1)) (m ((c : Thread nD τ).loc main_arg2)) := by
  dsimp only [Gen.V, Gen.hostOps0]
  after_results
  rfl

/-- The degree column the region finds is the reference's in-degree vector, re-laid as a column. -/
theorem deg_eq (c : Dev nD) : (V m c main_v14 : S100000x1.Idx → EReal)
    = shapeCast S100000x1 (Cert.ReferenceIdeal.Read.val_main_v13 (F := Ideal) (m ((c : Thread nD τ).loc main_arg2)))
        shapeCasts_S100000_S100000x1 := by
  dsimp only [Gen.V, Gen.hostOps0]
  after_results
  rfl

/-- The bias row the region finds is the bias argument, re-laid as a row. -/
theorem bias_eq (c : Dev nD) : (V m c main_v15 : S1x64.Idx → EReal)
    = shapeCast S1x64 (m ((c : Thread nD τ).loc main_arg4)) shapeCasts_S64_S1x64 := by
  dsimp only [Gen.V, Gen.hostOps0]
  after_results
  rfl

/-- An `[a]` array cast to a column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Reading the column at `(r, 0)` for every `r` gives the vector back. -/
theorem column_read (deg : S100000.Idx → EReal) :
    (fun r : S100000.Idx => shapeCast S100000x1 deg shapeCasts_S100000_S100000x1 (ix2 (r 0) (0 : Fin 1))) = deg := by
  funext r
  obtain ⟨a, rfl⟩ : ∃ a : Fin 100000, r = ix1 a := ⟨r 0, eq_ix1 r⟩
  exact shapeCast_a_a1_apply deg shapeCasts_S100000_S100000x1 a 0

/-- Reading the row at `(0, j)` for every `j` gives the vector back. -/
theorem row_read (b : S64.Idx → EReal) :
    (fun j : S64.Idx => shapeCast S1x64 b shapeCasts_S64_S1x64 (ix2 (0 : Fin 1) (j 0))) = b := by
  funext j
  obtain ⟨a, rfl⟩ : ∃ a : Fin 64, j = ix1 a := ⟨j 0, eq_ix1 j⟩
  exact shapeCast_a_1a_apply b shapeCasts_S64_S1x64 0 a

/-- The layer function in the kernel's layout, at a degree column and a bias row that are re-laid vectors, is the layer
    function of the vectors. -/
theorem layerK_of_casts (msg feat : S100000x64.Idx → EReal) (deg : S100000.Idx → EReal) (W : S64x64.Idx → EReal) (b : S64.Idx → EReal) :
    Blocks.layerK msg feat (shapeCast S100000x1 deg shapeCasts_S100000_S100000x1) W (shapeCast S1x64 b shapeCasts_S64_S1x64)
      = layer msg feat deg W b :=
  (congrArg (fun d => layer msg feat d W (fun j : S64.Idx => shapeCast S1x64 b shapeCasts_S64_S1x64 (ix2 (0 : Fin 1) (j 0))))
      (column_read deg)).trans
    (congrArg (fun bb => layer msg feat deg W bb) (row_read b))

/-- THE KERNEL'S LAYER, in the reference's terms: at the arrays the region finds, the layer function in the kernel's
    layout is the layer function of the reference's neighbour sums and in-degrees, the features, the weights and the bias. -/
theorem layerK_V (c : Dev nD) :
    Blocks.layerK (V m c main_v9) (V m c main_arg0) (V m c main_v14) (V m c main_arg3) (V m c main_v15)
      = layer (Cert.ReferenceIdeal.Read.val_main_v9 (F := Ideal) (m ((c : Thread nD τ).loc main_arg0))
            (m ((c : Thread nD τ).loc main_arg1)) (m ((c : Thread nD τ).loc main_arg2)))
          (m ((c : Thread nD τ).loc main_arg0))
          (Cert.ReferenceIdeal.Read.val_main_v13 (F := Ideal) (m ((c : Thread nD τ).loc main_arg2)))
          (m ((c : Thread nD τ).loc main_arg3)) (m ((c : Thread nD τ).loc main_arg4)) := by
  rw [msg_eq m c, deg_eq m c, bias_eq m c, V_main_arg0 m c, V_main_arg3 m c]
  exact layerK_of_casts _ _ _ _ _

end Cert.KernelIdeal.HostArrays

end
-- ==== Proof.lean ====
/-
  A graph layer — mean aggregation over incoming edges joined with the node's own features, a 64 × 64 linear map with
  bias, and a leaky activation — computed by a row-blocked kernel and by plain array operations: the two agree over the
  extended reals.

  Both programs start alike on the host: gather the source rows of the features along the edges, scatter-add them at
  the destination nodes (the neighbour sums), and scatter-add ones there (the in-degrees). From these,
    out(r, j) = act((∑ k, ((msg(r, k) + feat(r, k)) / (deg(r) + 1)) · W(k, j)) + b(j)),
    act(x) = x where x ≥ 0, slope · x elsewhere.
  The reference evaluates this on whole arrays. The kernel takes the degrees as a column and the bias as a row, cuts
  the 100000 rows into 50 blocks of 2000, and on each block forms the same quotient, the same sum over the 64
  contracted channels (its narrowing of both factors to bf16 is the identity on extended reals, and a product into a
  zero accumulator is the plain sum) and the same activation. Each block it writes is the corresponding rows of the one
  function above, and the blocks tile the array. No law of arithmetic is needed: the two sides are the same expression,
  term by term, so the inputs' finiteness is never used.
-/
import proofs.«100727_j11622181503640_1_alg».proof.Defs
import proofs.«100727_j11622181503640_1_alg».proof.Proof.Gen.Kernel
import proofs.«100727_j11622181503640_1_alg».proof.Proof.Gen.Kernel.Skeleton
import proofs.«100727_j11622181503640_1_alg».proof.Proof.Gen.Kernel.Launch
import proofs.«100727_j11622181503640_1_alg».proof.Proof.Gen.Kernel.Points
import proofs.«100727_j11622181503640_1_alg».proof.Proof.Gen.Kernel.Frame
import proofs.«100727_j11622181503640_1_alg».proof.Proof.Gen.KernelIdeal
import proofs.«100727_j11622181503640_1_alg».proof.Proof.Gen.KernelIdeal.Skeleton
import proofs.«100727_j11622181503640_1_alg».proof.Proof.Gen.KernelIdeal.Launch
import proofs.«100727_j11622181503640_1_alg».proof.Proof.Gen.KernelIdeal.Points
import proofs.«100727_j11622181503640_1_alg».proof.Proof.Gen.KernelIdeal.Frame
import proofs.«100727_j11622181503640_1_alg».proof.Proof.Gen.ReferenceIdeal
import proofs.«100727_j11622181503640_1_alg».proof.Proof.Gen.Pre_finite_inputs
import proofs.«100727_j11622181503640_1_alg».proof.Proof.Gen.KernelIdeal.Value
import proofs.«100727_j11622181503640_1_alg».proof.Proof.Gen.ReferenceIdeal.Run
import proofs.«100727_j11622181503640_1_alg».proof.Proof.Gen.ReferenceIdeal.Read
import Idealize.ShloMosaic.Adequacy
import Idealize.ShloMosaic.Init
import proofs.«100727_j11622181503640_1_alg».proof.Proof.SageLayer
import proofs.«100727_j11622181503640_1_alg».proof.Proof.RefIsLayer
import proofs.«100727_j11622181503640_1_alg».proof.Proof.KernelCover
import proofs.«100727_j11622181503640_1_alg».proof.Proof.HostArrays

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a sequence of total array operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The kernel's run with its result array named: the layer function of the reference's neighbour sums and in-degrees
    (of the kernel's own arguments), the features, the weights and the bias. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c : Thread Cert.KernelIdeal.nD Cert.KernelIdeal.τ).loc Cert.KernelIdeal.main_v16)
          = Cert.SageLayer.layer
              (Cert.ReferenceIdeal.Read.val_main_v9 (F := Ideal) (m ((c : Thread Cert.KernelIdeal.nD Cert.KernelIdeal.τ).loc Cert.KernelIdeal.main_arg0))
                (m ((c : Thread Cert.KernelIdeal.nD Cert.KernelIdeal.τ).loc Cert.KernelIdeal.main_arg1))
                (m ((c : Thread Cert.KernelIdeal.nD Cert.KernelIdeal.τ).loc Cert.KernelIdeal.main_arg2)))
              (m ((c : Thread Cert.KernelIdeal.nD Cert.KernelIdeal.τ).loc Cert.KernelIdeal.main_arg0))
              (Cert.ReferenceIdeal.Read.val_main_v13 (F := Ideal) (m ((c : Thread Cert.KernelIdeal.nD Cert.KernelIdeal.τ).loc Cert.KernelIdeal.main_arg2)))
              (m ((c : Thread Cert.KernelIdeal.nD Cert.KernelIdeal.τ).loc Cert.KernelIdeal.main_arg3))
              (m ((c : Thread Cert.KernelIdeal.nD Cert.KernelIdeal.τ).loc Cert.KernelIdeal.main_arg4))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4) = m ((c : Thread Cert.KernelIdeal.nD Cert.KernelIdeal.τ).loc Cert.KernelIdeal.main_arg4) :=
  (θ_run Cert.KernelIdeal.defs _ _).mono
    (fun _ h c => ⟨(h c).1.trans ((Cert.KernelIdeal.Blocks.final m c).trans (Cert.KernelIdeal.HostArrays.layerK_V m c)), (h c).2⟩)
    (Cert.KernelIdeal.Value.run_blocks (F := Ideal) m ρ)

/-- From memories that agree on the five arguments both programs end with the layer function of those arguments in
    their result arrays: the kernel by its run above, the reference by its run read one operation at a time. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2]
  exact Cert.ReferenceIdeal.RefLayer.result_eq _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
